-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_v28 : IVec S_ 1) (main_v33 : IVec S2x500000 1) : IVec S_ 1 :=
  let main_c_12 : IVec S_ 1 := constantI S_ 1 1#1
  let main_v34 : IVec S_ 1 := (fun x v => Host.reduce IntOp.andi x v reducesTo_S2x500000_S_d0_1 h_S_) main_v33 main_c_12
  let main_v35 : IVec S_ 1 := andi main_v28 main_v34
  main_v35

def fn_part1 {F : FTy → Type} [FloatOps F] (main_arg1 : IVec S2x500000 32) (main_arg5 : FVec F S1 .f32) (main_arg6 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x500000 32 := broadcastInDim S2x500000 ![] bcast_S_S2x500000 main_c_10
  let main_v30 : IVec S2x500000 1 := cmpi .sge main_arg1 main_v29
  let main_c_11 : IVec S_ 32 := constantI S_ 32 100000#32
  let main_v31 : IVec S2x500000 32 := broadcastInDim S2x500000 ![] bcast_S_S2x500000 main_c_11
  let main_v32 : IVec S2x500000 1 := cmpi .slt main_arg1 main_v31
  let main_v33 : IVec S2x500000 1 := andi main_v30 main_v32
  fn_part2 (F := F) main_v28 main_v33

def fn {F : FTy → Type} [FloatOps F] (main_arg0 : FVec F S100000x128 .f32) (main_arg1 : IVec S2x500000 32) (main_arg2 : FVec F S256x256 .f32) (main_arg3 : FVec F S256 .f32) (main_arg4 : FVec F S256x1 .f32) (main_arg5 : FVec F S1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg1 main_arg5 main_arg6 main_v13 main_v16
-- ==== Kernel.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S128x256 : Shape := ⟨2, ![128, 256]⟩
abbrev S1x256 : Shape := ⟨2, ![1, 256]⟩
abbrev S1x1 : Shape := ⟨2, ![1, 1]⟩
abbrev S4000x128 : Shape := ⟨2, ![4000, 128]⟩
abbrev S4000x1 : Shape := ⟨2, ![4000, 1]⟩
abbrev S4000x256 : Shape := ⟨2, ![4000, 256]⟩
abbrev S4000 : Shape := ⟨1, ![4000]⟩
abbrev S1000000x1 : Shape := ⟨2, ![1000000, 1]⟩
abbrev S1000000 : Shape := ⟨1, ![1000000]⟩

abbrev nBuf : Space → Nat
  | .hbm => 28
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S100000x128, .bf16⟩
  | .hbm, ⟨12, _⟩ => ⟨S500000x1, .i32⟩
  | .hbm, ⟨13, _⟩ => ⟨S500000x128, .bf16⟩
  | .hbm, ⟨14, _⟩ => ⟨S500000x1, .i32⟩
  | .hbm, ⟨15, _⟩ => ⟨S500000x128, .bf16⟩
  | .hbm, ⟨16, _⟩ => ⟨S128x256, .f32⟩
  | .hbm, ⟨17, _⟩ => ⟨S128x256, .bf16⟩
  | .hbm, ⟨18, _⟩ => ⟨S128x256, .f32⟩
  | .hbm, ⟨19, _⟩ => ⟨S128x256, .bf16⟩
  | .hbm, ⟨20, _⟩ => ⟨S1x256, .f32⟩
  | .hbm, ⟨21, _⟩ => ⟨S1x256, .f32⟩
  | .hbm, ⟨22, _⟩ => ⟨S1x1, .f32⟩
  | .hbm, ⟨23, _⟩ => ⟨S1x1, .f32⟩
  | .hbm, ⟨24, _⟩ => ⟨S500000x1, .f32⟩
  | .hbm, ⟨25, _⟩ => ⟨S500000x1, .f32⟩
  | .hbm, ⟨26, _⟩ => ⟨S1000000x1, .f32⟩
  | .hbm, ⟨27, _⟩ => ⟨S1000000, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S1x1, .f32⟩
  | .local _ .vmem, ⟨10, _⟩ => ⟨S4000x1, .f32⟩
  | .local _ .vmem, ⟨11, _⟩ => ⟨S4000x1, .f32⟩
  | .local _ .vmem, ⟨12, _⟩ => ⟨S4000x1, .f32⟩
  | .local _ .vmem, ⟨13, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_v5 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S500000_S500000x1_0 : S500000.BroadcastsInDim S500000x1 (![0] : Fin 1 → Fin S500000x1.rank)
  slices_S256x256_S128x256_0_0 : S256x256.Slices ![0, 0] S128x256
  slices_S256x256_S128x256_128_0 : S256x256.Slices ![128, 0] S128x256
  shapeCasts_S256_S1x256 : S256.ShapeCasts S1x256
  shapeCasts_S256x1_S1x256 : S256x1.ShapeCasts S1x256
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S4000x256 : S1x256.Broadcasts S4000x256
  reduces_S4000x256_S4000 : S4000x256.Reduces [1] S4000
  shapeCasts_S4000_S4000x1 : S4000.ShapeCasts S4000x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  concatenates_S500000x1_S500000x1_S1000000x1_d0 : Shape.Concatenates [S500000x1, S500000x1] S1000000x1 0
  shapeCasts_S1000000x1_S1000000 : S1000000x1.ShapeCasts S1000000
  gather_S100000x128_S500000x1_S500000x128_1_0_n_n_0_1_1128_wf : GatherDims.WF S100000x128 S500000x1 S500000x128 [1] [0] [] [0] [] 1 ![1, 128]
  dot_S4000x128_S128x256_S4000x256_1_0_0_1_n_n_wf : DotDims.WF S4000x128 S128x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x1.size a ≤ S500000x1.size a
  hwx0_8 : ∀ i : grid0.Coords, EltTy.bits .f32 = 32 ∨ (Rect.block (s := S500000x1) S4000x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S500000x1.size a
  hwx0_9 : ∀ i : grid0.Coords, EltTy.bits .f32 = 32 ∨ (Rect.block (s := S500000x1) S4000x1.size (cc0_transform_9 i) (hinb0_9 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf

abbrev win0_0 : Pipeline.Window sig grid0 :=
  Pipeline.Window.ofSpec (Memref.whole main_v5) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15_0) S4000x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_1) S4000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1x256 : Shape := ⟨2, ![1, 256]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S1000000, .i32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x128, .f32⟩
  | .hbm, ⟨35, _⟩ => ⟨S1000000x256, .f32⟩
  | .hbm, ⟨36, _⟩ => ⟨S1000000x256, .f32⟩
  | .hbm, ⟨37, _⟩ => ⟨S1x256, .f32⟩
  | .hbm, ⟨38, _⟩ => ⟨S1000000x256, .f32⟩
  | .hbm, ⟨39, _⟩ => ⟨S1000000x256, .f32⟩
  | .hbm, ⟨40, _⟩ => ⟨S_, .f32⟩
  | .hbm, ⟨41, _⟩ => ⟨S1000000x256, .f32⟩
  | .hbm, ⟨42, _⟩ => ⟨S1000000x256, .f32⟩
  | .hbm, ⟨43, _⟩ => ⟨S1000000x1, .f32⟩
  | .hbm, ⟨44, _⟩ => ⟨S1x1, .f32⟩
  | .hbm, ⟨45, _⟩ => ⟨S1000000x1, .f32⟩
  | .hbm, ⟨46, _⟩ => ⟨S1000000x1, .f32⟩
  | .hbm, ⟨47, _⟩ => ⟨S1x1, .f32⟩
  | .hbm, ⟨48, _⟩ => ⟨S1000000x1, .f32⟩
  | .hbm, ⟨49, _⟩ => ⟨S1000000x1, .f32⟩
  | .hbm, ⟨50, _⟩ => ⟨S1000000x1, .f32⟩
  | .hbm, ⟨51, _⟩ => ⟨S1000000x1, .f32⟩
  | .hbm, ⟨52, _⟩ => ⟨S_, .f32⟩
  | .hbm, ⟨53, _⟩ => ⟨S1000000x1, .f32⟩
  | .hbm, ⟨54, _⟩ => ⟨S1000000x1, .f32⟩
  | .hbm, ⟨55, _⟩ => ⟨S_, .f32⟩
  | .hbm, ⟨56, _⟩ => ⟨S1000000x1, .f32⟩
  | .hbm, ⟨57, _⟩ => ⟨S1000000x1, .f32⟩
  | .hbm, ⟨58, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S500000_S1000000_d0 : Shape.Concatenates [S500000, S500000] S1000000 0
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S1000000x256_S256x256_S1000000x256_1_0_0_1_n_n_wf : DotDims.WF S1000000x256 S256x256 S1000000x256 [1] [0] [0] [1] [] []
  dot_S1000000x256_S256x1_S1000000x1_1_0_0_1_n_n_wf : DotDims.WF S1000000x256 S256x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x256_S1000000x256_1_0_0_1_n_n : DotDims S1000000x256 S256x256 S1000000x256 where
  lhsContracting := [1]
  rhsContracting := [0]
  lhsNonContracting := [0]
  rhsNonContracting := [1]
  lhsBatch := []
  rhsBatch := []
  wf := dot_S1000000x256_S256x256_S1000000x256_1_0_0_1_n_n_wf
def dot_S1000000x256_S256x1_S1000000x1_1_0_0_1_n_n : DotDims S1000000x256 S256x1 S1000000x1 where
  lhsContracting := [1]
  rhsContracting := [0]
  lhsNonContracting := [0]
  rhsNonContracting := [1]
  lhsBatch := []
  rhsBatch := []
  wf := dot_S1000000x256_S256x1_S1000000x1_1_0_0_1_n_n_wf

class Facts : Prop extends Facts₀ where

variable [Facts]
-- ==== Proof.Domain.lean ====
/-
  What the precondition says of the edge list: every entry of edge_index, read signed, is a node id in [0, 100000).

  The precondition is a conjunction of `all`-reductions; its last conjunct is the `all` over the 2 × 500000 words of
  (word ≥ 0) ∧ (word < 100000), both comparisons signed. An `all` that is 1 had a 1 at every index, and a signed
  comparison that is 1 is the order of the words' signed readings.
-/
import proofs.«422551_j63230508532406_3_alg».proof.Pre_finite_inputs
import Idealize.ShloMosaic.Lib.ReduceAll
import Idealize.ShloMosaic.Lib.ValueIdx

noncomputable section

namespace Cert.EdgeMlp

open Idealize.ShloMosaic Idealize.ShloMosaic.ValueIdx

instance : Subsingleton Cert.Pre_finite_inputs.S_.Idx := ⟨fun a b => funext fun d => d.elim0⟩

/-- Under the precondition every word of the edge list is a node id: 0 ≤ word < 100000, read signed. -/
theorem word_inRange {F : FTy → Type} [FloatOps F] [Cert.Pre_finite_inputs.Facts]
    (z : FVec F Cert.Pre_finite_inputs.S100000x128 .f32) (e : IVec Cert.Pre_finite_inputs.S2x500000 32)
    (W1 : FVec F Cert.Pre_finite_inputs.S256x256 .f32) (b1 : FVec F Cert.Pre_finite_inputs.S256 .f32)
    (W2 : FVec F Cert.Pre_finite_inputs.S256x1 .f32) (b2 sb : FVec F Cert.Pre_finite_inputs.S1 .f32)
    (h : Cert.Pre_finite_inputs.fn (F := F) z e W1 b1 W2 b2 sb = fun _ => 1#1)
    (i : Cert.Pre_finite_inputs.S2x500000.Idx) : 0 ≤ (e i).toInt ∧ (e i).toInt < 100000 := by
  have h0 := congrFun h ix0
  dsimp only [Cert.Pre_finite_inputs.fn, Cert.Pre_finite_inputs.fn_part1, Cert.Pre_finite_inputs.fn_part2] at h0
  obtain ⟨-, hall⟩ := IntOp.andi_eq_one.1 h0
  have hi := Host.reduce_andi_all _ _ _ _ _ hall i
  obtain ⟨hge, hlt⟩ := IntOp.andi_eq_one.1 hi
  have hge' := IntOp.cmpi_sge.1 hge
  have hlt' := IntOp.cmpi_slt.1 hlt
  refine ⟨?_, ?_⟩
  · have : (0#32 : BitVec 32).toInt = 0 := by decide
    exact this ▸ hge'
  · have : (100000#32 : BitVec 32).toInt = 100000 := by decide
    exact this ▸ hlt'

end Cert.EdgeMlp

end
-- ==== Proof.EdgeScore.lean ====
/-
  The link-prediction score of one directed edge, and the array of all 1,000,000 scores.

  A directed edge (u → v) of the symmetrised graph is scored by a two-layer perceptron on the concatenation
  (z_u | z_v) of its endpoints' 128 features: hidden unit k is max(Σ_q (z_u | z_v)_q · W1[q, k] + b1[k], 0), the
  logit is Σ_k hidden_k · W2[k, 0] + b2 + sig_bias, and the score is the logistic of the logit. The sum over the
  256 concatenated features is the sum over z_u against the top half of W1 plus the sum over z_v against the bottom
  half (`sum_halves`): a regrouping of one finite sum, valid on every extended real.

  Edge i < 500000 of the symmetrised list is (edge_index[0, i] → edge_index[1, i]); edge 500000 + i is its
  reverse. A node is named by a 32-bit word read signed and clamped into [0, 99999] (`node`).
-/
import Idealize.ShloMosaic.PureOps.Ideal
import Idealize.ShloMosaic.Lib.ValueIdx
import Mathlib.Algebra.BigOperators.Fin

noncomputable section

namespace Cert.EdgeMlp

open Idealize.ShloMosaic Idealize.ShloMosaic.ValueIdx
open scoped BigOperators

/-- Feature q < 128 of the concatenation is feature q of the first endpoint. -/
abbrev lo (j : Fin 128) : Fin 256 := ⟨j.val, by omega⟩
/-- Feature 128 + q of the concatenation is feature q of the second endpoint. -/
abbrev hi (j : Fin 128) : Fin 256 := ⟨128 + j.val, by omega⟩

/-- A sum over the 256 concatenated features is the sum over the first 128 plus the sum over the last 128. -/
theorem sum_halves {M : Type*} [AddCommMonoid M] (f : Fin 256 → M) :
    ∑ q : Fin 256, f q = ∑ j : Fin 128, f (lo j) + ∑ j : Fin 128, f (hi j) :=
  Fin.sum_univ_add (a := 128) (b := 128) f

/-- The node a start word names: the word read signed, clamped into the table's rows. -/
def node (w : BitVec 32) : Fin 100000 := ⟨min w.toInt.toNat (100000 - 1), by omega⟩

/-- A word already in [0, 100000) names the row it spells. -/
theorem node_val_of_inRange (w : BitVec 32) (h0 : 0 ≤ w.toInt) (hlt : w.toInt < 100000) :
    (node w).val = w.toInt.toNat := by
  show min w.toInt.toNat (100000 - 1) = w.toInt.toNat
  omega

/-- Hidden unit k on the features a of the source and b of the destination: wa, wb the two halves of the first
    layer's weights, c its bias. -/
def hiddenOf (a b : Fin 128 → EReal) (wa wb : Fin 128 → Fin 256 → EReal) (c : Fin 256 → EReal) (k : Fin 256) : EReal :=
  max ((∑ j : Fin 128, a j * wa j k + ∑ j : Fin 128, b j * wb j k) + c k) 0

/-- The score from the hidden units: v the second layer's weights, d its bias, s the bias under the logistic. -/
def scoreOf (a b : Fin 128 → EReal) (wa wb : Fin 128 → Fin 256 → EReal) (c v : Fin 256 → EReal) (d s : EReal) : EReal :=
  Ideal.logistic (((∑ k : Fin 256, hiddenOf a b wa wb c k * v k) + d) + s)

/-- The score of the edge whose source has features a and whose destination has features b, from the parameter
    arrays: the top half of W1 meets the source, the bottom half the destination. -/
def score (a b : Fin 128 → EReal) (W1 : (⟨2, ![256, 256]⟩ : Shape).Idx → EReal) (b1 : (⟨1, ![256]⟩ : Shape).Idx → EReal)
    (W2 : (⟨2, ![256, 1]⟩ : Shape).Idx → EReal) (b2 sb : (⟨1, ![1]⟩ : Shape).Idx → EReal) : EReal :=
  scoreOf a b (fun j k => W1 (ix2 (lo j) k)) (fun j k => W1 (ix2 (hi j) k)) (fun k => b1 (ix1 k))
    (fun k => W2 (ix2 k (0 : Fin 1))) (b2 (ix1 (0 : Fin 1))) (sb (ix1 (0 : Fin 1)))

/-- The features of the node that endpoint s of undirected edge n names. -/
def feat (z : (⟨2, ![100000, 128]⟩ : Shape).Idx → EReal) (e : IVec ⟨2, ![2, 500000]⟩ 32) (s : Fin 2) (n : Fin 500000) :
    Fin 128 → EReal := fun j => z (ix2 (node (e (ix2 s n))) j)

/-- Scores of the forward edges (endpoint 0 → endpoint 1). -/
def fwd (z : (⟨2, ![100000, 128]⟩ : Shape).Idx → EReal) (e : IVec ⟨2, ![2, 500000]⟩ 32)
    (W1 : (⟨2, ![256, 256]⟩ : Shape).Idx → EReal) (b1 : (⟨1, ![256]⟩ : Shape).Idx → EReal)
    (W2 : (⟨2, ![256, 1]⟩ : Shape).Idx → EReal) (b2 sb : (⟨1, ![1]⟩ : Shape).Idx → EReal) (n : Fin 500000) : EReal :=
  score (feat z e 0 n) (feat z e 1 n) W1 b1 W2 b2 sb

/-- Scores of the reversed edges (endpoint 1 → endpoint 0). -/
def bwd (z : (⟨2, ![100000, 128]⟩ : Shape).Idx → EReal) (e : IVec ⟨2, ![2, 500000]⟩ 32)
    (W1 : (⟨2, ![256, 256]⟩ : Shape).Idx → EReal) (b1 : (⟨1, ![256]⟩ : Shape).Idx → EReal)
    (W2 : (⟨2, ![256, 1]⟩ : Shape).Idx → EReal) (b2 sb : (⟨1, ![1]⟩ : Shape).Idx → EReal) (n : Fin 500000) : EReal :=
  score (feat z e 1 n) (feat z e 0 n) W1 b1 W2 b2 sb

/-- All scores: the forward edges, then the reversed ones. -/
def scores (z : (⟨2, ![100000, 128]⟩ : Shape).Idx → EReal) (e : IVec ⟨2, ![2, 500000]⟩ 32)
    (W1 : (⟨2, ![256, 256]⟩ : Shape).Idx → EReal) (b1 : (⟨1, ![256]⟩ : Shape).Idx → EReal)
    (W2 : (⟨2, ![256, 1]⟩ : Shape).Idx → EReal) (b2 sb : (⟨1, ![1]⟩ : Shape).Idx → EReal) :
    (⟨1, ![1000000]⟩ : Shape).Idx → EReal := fun i =>
  if h : (i 0).val < 500000 then fwd z e W1 b1 W2 b2 sb ⟨(i 0).val, h⟩
  else bwd z e W1 b1 W2 b2 sb ⟨(i 0).val - 500000, by have := (i 0).isLt; change (i 0).val < 1000000 at this; omega⟩

end Cert.EdgeMlp

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.RefValue.lean ====
/-
  The reference's result, index by index, is the array of edge scores.

  The reference symmetrises the edge list (sources: row 0 then row 1 of edge_index; destinations: row 1 then row 0),
  wraps negative ids by adding 100000, gathers the endpoint rows of z, concatenates source and destination features
  and applies the perceptron. Under the precondition no id is negative, so the wrap is the identity and the word
  gathered for directed edge n is the edge list's own word; the gather reads the row that word names (clamped).
  The first layer's sum over the 256 concatenated features regroups into the source's sum against the top half of W1
  plus the destination's against the bottom half, and 1 / (1 + exp (-x)) is the logistic.
-/
import proofs.«422551_j63230508532406_3_alg».proof.Proof.Gen.ReferenceIdeal.Read
import proofs.«422551_j63230508532406_3_alg».proof.Proof.EdgeScore
import proofs.«422551_j63230508532406_3_alg».proof.Proof.LibRowGatherScatter
import Idealize.ShloMosaic.Lib.IdealHost

noncomputable section

namespace Cert.EdgeMlp.Ref

open Idealize.ShloMosaic Idealize.ShloMosaic.ValueIdx Cert.ReferenceIdeal Cert.ReferenceIdeal.Read Cert.EdgeMlp
open scoped BigOperators

variable [Cert.ReferenceIdeal.Facts]
open Cert.ReferenceIdeal.Facts₀

variable (z : FVec Ideal S100000x128 .f32) (e : IVec S2x500000 32) (W1 : FVec Ideal S256x256 .f32)
  (b1 : FVec Ideal S256 .f32) (W2 : FVec Ideal S256x1 .f32) (b2 sb : FVec Ideal S1 .f32)

/-! ## The symmetrised edge list -/

/-- Row 0 of the edge list as a flat array. -/
theorem row0_at (n : Fin 500000) : val_main_v1 (F := Ideal) e (ix1 n) = e (ix2 (0 : Fin 2) n) := by
  rw [val_main_v1_apply, val_main_v0_apply]
  refine congrArg e (funext fun a => ?_)
  match a with
  | ⟨0, _⟩ => exact Fin.ext rfl
  | ⟨1, _⟩ => exact Fin.ext (by have := n.isLt; show n.val % 500000 = n.val; omega)

/-- Row 1 of the edge list as a flat array. -/
theorem row1_at (n : Fin 500000) : val_main_v3 (F := Ideal) e (ix1 n) = e (ix2 (1 : Fin 2) n) := by
  rw [val_main_v3_apply, val_main_v2_apply]
  refine congrArg e (funext fun a => ?_)
  match a with
  | ⟨0, _⟩ => exact Fin.ext rfl
  | ⟨1, _⟩ => exact Fin.ext (by have := n.isLt; show n.val % 500000 = n.val; omega)

/-- Row 1 again (the destinations' first half). -/
theorem row1_at' (n : Fin 500000) : val_main_v6 (F := Ideal) e (ix1 n) = e (ix2 (1 : Fin 2) n) := by
  rw [val_main_v6_apply, val_main_v5_apply]
  refine congrArg e (funext fun a => ?_)
  match a with
  | ⟨0, _⟩ => exact Fin.ext rfl
  | ⟨1, _⟩ => exact Fin.ext (by have := n.isLt; show n.val % 500000 = n.val; omega)

/-- Row 0 again (the destinations' second half). -/
theorem row0_at' (n : Fin 500000) : val_main_v8 (F := Ideal) e (ix1 n) = e (ix2 (0 : Fin 2) n) := by
  rw [val_main_v8_apply, val_main_v7_apply]
  refine congrArg e (funext fun a => ?_)
  match a with
  | ⟨0, _⟩ => exact Fin.ext rfl
  | ⟨1, _⟩ => exact Fin.ext (by have := n.isLt; show n.val % 500000 = n.val; omega)

/-- The source word of directed edge n: row 0 for the forward edges, row 1 for the reversed ones. -/
def srcWord (n : Fin 1000000) : BitVec 32 :=
  if h : n.val < 500000 then e (ix2 (0 : Fin 2) ⟨n.val, h⟩) else e (ix2 (1 : Fin 2) ⟨n.val - 500000, by have := n.isLt; omega⟩)

/-- The destination word of directed edge n: row 1 for the forward edges, row 0 for the reversed ones. -/
def dstWord (n : Fin 1000000) : BitVec 32 :=
  if h : n.val < 500000 then e (ix2 (1 : Fin 2) ⟨n.val, h⟩) else e (ix2 (0 : Fin 2) ⟨n.val - 500000, by have := n.isLt; omega⟩)

theorem src_at (n : Fin 1000000) : val_main_v4 (F := Ideal) e (ix1 n) = srcWord e n := by
  unfold val_main_v4 srcWord
  by_cases h : n.val < 500000
  · rw [dif_pos h]
    refine (concatenate_pair_apply_left (0 : Fin S1000000.rank) _ _ concatenates_S500000_S500000_S1000000_d0 (ix1 n) rfl
      (ix1 ⟨n.val, h⟩) ?_).trans (row0_at e _)
    intro b
    match b with
    | ⟨0, _⟩ => rfl
  · rw [dif_neg h]
    refine (concatenate_pair_apply_right (0 : Fin S1000000.rank) _ _ concatenates_S500000_S500000_S1000000_d0 (ix1 n) rfl rfl
      (ix1 ⟨n.val - 500000, by have := n.isLt; omega⟩) ?_ ?_).trans (row1_at e _)
    · intro b hb
      match b with
      | ⟨0, _⟩ => exact absurd rfl hb
    · show n.val - 500000 + 500000 = n.val
      omega

theorem dst_at (n : Fin 1000000) : val_main_v9 (F := Ideal) e (ix1 n) = dstWord e n := by
  unfold val_main_v9 dstWord
  by_cases h : n.val < 500000
  · rw [dif_pos h]
    refine (concatenate_pair_apply_left (0 : Fin S1000000.rank) _ _ concatenates_S500000_S500000_S1000000_d0 (ix1 n) rfl
      (ix1 ⟨n.val, h⟩) ?_).trans (row1_at' e _)
    intro b
    match b with
    | ⟨0, _⟩ => rfl
  · rw [dif_neg h]
    refine (concatenate_pair_apply_right (0 : Fin S1000000.rank) _ _ concatenates_S500000_S500000_S1000000_d0 (ix1 n) rfl rfl
      (ix1 ⟨n.val - 500000, by have := n.isLt; omega⟩) ?_ ?_).trans (row0_at' e _)
    · intro b hb
      match b with
      | ⟨0, _⟩ => exact absurd rfl hb
    · show n.val - 500000 + 500000 = n.val
      omega

/-- The row gather of z at an array of start words, read at (n, j): row `node` of the word, column j. -/
theorem gather_at (idx : IVec S1000000x1 32) (n : Fin 1000000) (j : Fin 128) :
    Host.gather gather_S100000x128_S1000000x1_S1000000x128_1_0_n_n_0_1_1128 z idx (ix2 n j)
      = z (ix2 (node (idx (ix2 n (0 : Fin 1)))) j) :=
  Cert.Lib.RowGS.gather_rows_apply (α := EReal) (N := 100000) (D := 128) (E := 1000000) (w := 32) (by omega)
    gather_S100000x128_S1000000x1_S1000000x128_1_0_n_n_0_1_1128
    rfl rfl rfl rfl rfl rfl rfl z idx n j

/-! ## The wrap of negative ids does nothing to an id that is not negative -/

variable (hin : ∀ i : S2x500000.Idx, 0 ≤ (e i).toInt ∧ (e i).toInt < 100000)
include hin

theorem srcWord_nonneg (n : Fin 1000000) : 0 ≤ (srcWord e n).toInt := by
  unfold srcWord; split <;> exact (hin _).1

theorem dstWord_nonneg (n : Fin 1000000) : 0 ≤ (dstWord e n).toInt := by
  unfold dstWord; split <;> exact (hin _).1

theorem notNeg_of_nonneg (w : BitVec 32) (h : 0 ≤ w.toInt) : IntOp.cmpi .slt w 0#32 = 0#1 :=
  eq_zero_of_ne_one fun hc => by
    have := IntOp.cmpi_slt.1 hc
    have h0 : (0#32 : BitVec 32).toInt = 0 := by decide
    omega

theorem wrapped_src_at (n : Fin 1000000) : val_main_v14 (F := Ideal) e (ix1 n) = srcWord e n := by
  rw [val_main_v14_apply, val_main_v11_apply, val_main_v10_apply, val_main_c_apply, src_at,
    notNeg_of_nonneg e hin _ (srcWord_nonneg e hin n), select_zero]

theorem wrapped_dst_at (n : Fin 1000000) : val_main_v21 (F := Ideal) e (ix1 n) = dstWord e n := by
  rw [val_main_v21_apply, val_main_v18_apply, val_main_v17_apply, val_main_c_1_apply, dst_at,
    notNeg_of_nonneg e hin _ (dstWord_nonneg e hin n), select_zero]

/-! ## The gathered endpoint features and their concatenation -/

theorem srcFeat_at (n : Fin 1000000) (j : Fin 128) :
    val_main_v16 (F := Ideal) z e (ix2 n j) = z (ix2 (node (srcWord e n)) j) := by
  have hw : val_main_v15 (F := Ideal) e (ix2 n (0 : Fin 1)) = srcWord e n := by
    rw [val_main_v15_apply]
    have hi : idx_main_v15 (ix2 n (0 : Fin 1)) = ix1 n := funext fun a => by
      match a with
      | ⟨0, _⟩ => rfl
    rw [hi, wrapped_src_at e hin n]
  unfold val_main_v16
  exact (gather_at z (val_main_v15 (F := Ideal) e) n j).trans (by rw [hw])

theorem dstFeat_at (n : Fin 1000000) (j : Fin 128) :
    val_main_v23 (F := Ideal) z e (ix2 n j) = z (ix2 (node (dstWord e n)) j) := by
  have hw : val_main_v22 (F := Ideal) e (ix2 n (0 : Fin 1)) = dstWord e n := by
    rw [val_main_v22_apply]
    have hi : idx_main_v22 (ix2 n (0 : Fin 1)) = ix1 n := funext fun a => by
      match a with
      | ⟨0, _⟩ => rfl
    rw [hi, wrapped_dst_at e hin n]
  unfold val_main_v23
  exact (gather_at z (val_main_v22 (F := Ideal) e) n j).trans (by rw [hw])

theorem cat_lo (n : Fin 1000000) (j : Fin 128) :
    val_main_v24 (F := Ideal) z e (ix2 n (lo j)) = z (ix2 (node (srcWord e n)) j) := by
  unfold val_main_v24
  refine (concatenate_pair_apply_left (1 : Fin S1000000x256.rank) _ _ concatenates_S1000000x128_S1000000x128_S1000000x256_d1
    (ix2 n (lo j)) rfl (ix2 n j) ?_).trans (srcFeat_at z e hin n j)
  intro b
  match b with
  | ⟨0, _⟩ => rfl
  | ⟨1, _⟩ => rfl

theorem cat_hi (n : Fin 1000000) (j : Fin 128) :
    val_main_v24 (F := Ideal) z e (ix2 n (hi j)) = z (ix2 (node (dstWord e n)) j) := by
  unfold val_main_v24
  refine (concatenate_pair_apply_right (1 : Fin S1000000x256.rank) _ _ concatenates_S1000000x128_S1000000x128_S1000000x256_d1
    (ix2 n (hi j)) rfl rfl (ix2 n j) ?_ ?_).trans (dstFeat_at z e hin n j)
  · intro b hb
    match b with
    | ⟨0, _⟩ => rfl
    | ⟨1, _⟩ => exact absurd rfl hb
  · show j.val + 128 = 128 + j.val
    omega

/-! ## The perceptron -/

/-- The rectified first layer of directed edge n at hidden unit k. -/
theorem hidden_at (n : Fin 1000000) (k : Fin 256) :
    val_main_v29 (F := Ideal) z e W1 b1 (ix2 n k)
      = hiddenOf (fun j => z (ix2 (node (srcWord e n)) j)) (fun j => z (ix2 (node (dstWord e n)) j))
          (fun j k => W1 (ix2 (lo j) k)) (fun j k => W1 (ix2 (hi j) k)) (fun k => b1 (ix1 k)) k := by
  rw [val_main_v29_apply, val_main_v28_apply, val_main_v25_apply, val_main_v27_apply, val_main_v26_apply,
    val_main_call0_v0_apply, val_main_call0_cst_apply]
  have hl : ∀ q : Fin 256, lidx_main_v25 (ix2 n k) q = ix2 n q := fun q => funext fun a => by
    match a with
    | ⟨0, _⟩ => rfl
    | ⟨1, _⟩ => rfl
  have hr : ∀ q : Fin 256, ridx_main_v25 (ix2 n k) q = ix2 q k := fun q => funext fun a => by
    match a with
    | ⟨0, _⟩ => rfl
    | ⟨1, _⟩ => rfl
  have hb : idx_main_v26 (idx_main_v27 (ix2 n k)) = ix1 k := funext fun a => by
    match a with
    | ⟨0, _⟩ => rfl
  simp only [hl, hr, hb]
  rw [sum_halves]
  simp only [cat_lo z e hin, cat_hi z e hin]
  show max _ (Ideal.ofBits .f32 0x00000000#32) = _
  rw [Ideal.ofBits_zero_f32]
  rfl

/-- The score of directed edge n. -/
theorem score_at (n : Fin 1000000) :
    val_main_v42 (F := Ideal) z e W1 b1 W2 b2 sb (ix2 n (0 : Fin 1))
      = score (fun j => z (ix2 (node (srcWord e n)) j)) (fun j => z (ix2 (node (dstWord e n)) j)) W1 b1 W2 b2 sb := by
  rw [val_main_v42_apply, val_main_v41_apply, val_main_cst_3_apply, val_main_v40_apply, val_main_v39_apply,
    val_main_cst_apply, val_main_v38_apply, val_main_v37_apply, val_main_v36_apply, val_main_v35_apply,
    val_main_v34_apply, val_main_v33_apply, val_main_v32_apply, val_main_v31_apply, val_main_v30_apply]
  have hl : ∀ q : Fin 256, lidx_main_v30 (ix2 n (0 : Fin 1)) q = ix2 n q := fun q => funext fun a => by
    match a with
    | ⟨0, _⟩ => rfl
    | ⟨1, _⟩ => rfl
  have hr : ∀ q : Fin 256, ridx_main_v30 (ix2 n (0 : Fin 1)) q = ix2 q (0 : Fin 1) := fun q => funext fun a => by
    match a with
    | ⟨0, _⟩ => rfl
    | ⟨1, _⟩ => rfl
  have h5 : idx_main_v31 (idx_main_v32 (ix2 n (0 : Fin 1))) = ix1 (0 : Fin 1) := funext fun a => by
    match a with
    | ⟨0, _⟩ => rfl
  have h6 : idx_main_v34 (idx_main_v35 (ix2 n (0 : Fin 1))) = ix1 (0 : Fin 1) := funext fun a => by
    match a with
    | ⟨0, _⟩ => rfl
  simp only [hl, hr, h5, h6, hidden_at z e W1 b1 hin]
  simp only [Ideal.ofBits_def, Ideal.ofBits_one_f32, Ideal.hostDivf_def, Ideal.addf_def, Ideal.hostUnary_exp_def,
    Ideal.hostNegf_def]
  rfl

/-- THE REFERENCE'S RESULT is the array of edge scores. -/
theorem result_eq :
    val_main_v43 (F := Ideal) z e W1 b1 W2 b2 sb = scores z e W1 b1 W2 b2 sb := by
  funext i
  obtain ⟨n, rfl⟩ : ∃ n : Fin 1000000, i = ix1 n := ⟨i 0, eq_ix1 i⟩
  rw [val_main_v43_apply]
  have hi : idx_main_v43 (ix1 n) = ix2 n (0 : Fin 1) := funext fun a => by
    match a with
    | ⟨0, _⟩ => exact Fin.ext (Nat.div_one _)
    | ⟨1, _⟩ => rfl
  rw [hi, score_at z e W1 b1 W2 b2 sb hin n]
  unfold scores fwd bwd feat srcWord dstWord
  by_cases h : n.val < 500000
  · simp only [dif_pos h]
  · simp only [dif_neg h]

end Cert.EdgeMlp.Ref

end
-- ==== Proof.KernelArrays.lean ====
/-
  The arrays the kernel's one region finds, read at an index.

  Before the region the host takes the two rows of the edge list, rounds z to bf16 (the identity on extended reals),
  gathers the endpoint rows of z (one array for endpoint 0, one for endpoint 1; the row is the start word read signed
  and clamped), cuts W1 into its top and bottom halves, and lays the two bias vectors, W2's one column and the two
  scalars out as rows. Each such array is, index by index, an entry of an argument array.
-/
import proofs.«422551_j63230508532406_3_alg».proof.Proof.Gen.KernelIdeal.Frame
import proofs.«422551_j63230508532406_3_alg».proof.Proof.EdgeScore
import proofs.«422551_j63230508532406_3_alg».proof.Proof.LibRowGatherScatter
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.EdgeMlp.Kern

open Idealize.ShloMosaic Idealize.ShloMosaic.TcCoe Idealize.SL.Sem Idealize.ShloMosaic.StableHlo Idealize.ShloMosaic.ValueIdx
open Cert.KernelIdeal Cert.KernelIdeal.Gen Cert.EdgeMlp

variable (m : (ℓ : Loc nD τ sig) → Buf (Elt Ideal) ℓ)

/-- The argument arrays on core c. -/
abbrev zA (c : Dev nD) : FVec Ideal S100000x128 .f32 := m ((c : Thread nD τ).loc main_arg0)
abbrev eA (c : Dev nD) : IVec S2x500000 32 := m ((c : Thread nD τ).loc main_arg1)
abbrev w1A (c : Dev nD) : FVec Ideal S256x256 .f32 := m ((c : Thread nD τ).loc main_arg2)
abbrev b1A (c : Dev nD) : FVec Ideal S256 .f32 := m ((c : Thread nD τ).loc main_arg3)
abbrev w2A (c : Dev nD) : FVec Ideal S256x1 .f32 := m ((c : Thread nD τ).loc main_arg4)
abbrev b2A (c : Dev nD) : FVec Ideal S1 .f32 := m ((c : Thread nD τ).loc main_arg5)
abbrev sbA (c : Dev nD) : FVec Ideal S1 .f32 := m ((c : Thread nD τ).loc main_arg6)

/-- A flat array of start words as a column, at (n, 0). -/
theorem col_at (X : IVec S500000 32) (n : Fin 500000) :
    broadcastInDim (s := S500000) S500000x1 ![0] Facts₀.bcast_S500000_S500000x1_0 X (ix2 n (0 : Fin 1)) = X (ix1 n) :=
  broadcastInDim_apply _ Facts₀.bcast_S500000_S500000x1_0 X (ix2 n (0 : Fin 1)) (ix1 n) (fun a => by
    match a with
    | ⟨0, _⟩ => show n.val = if (500000 : Nat) = 1 then 0 else n.val; rw [if_neg (by decide)])

/-- Row 0 of the edge list as a column of start words, at (n, 0). -/
theorem col0_at (e : IVec S2x500000 32) (n : Fin 500000) :
    broadcastInDim (s := S500000) S500000x1 ![0] Facts₀.bcast_S500000_S500000x1_0
        (shapeCast S500000 (extractStridedSlice S1x500000 ![0, 0] e Facts₀.slices_S2x500000_S1x500000_0_0) Facts₀.shapeCasts_S1x500000_S500000)
        (ix2 n (0 : Fin 1))
      = e (ix2 (0 : Fin 2) n) := by
  rw [col_at, shapeCast_1a_a_apply]
  exact slice2_axis0_apply 0 e Facts₀.slices_S2x500000_S1x500000_0_0 (0 : Fin 1) n (0 : Fin 2) rfl

/-- Row 1 of the edge list as a column of start words, at (n, 0). -/
theorem col1_at (e : IVec S2x500000 32) (n : Fin 500000) :
    broadcastInDim (s := S500000) S500000x1 ![0] Facts₀.bcast_S500000_S500000x1_0
        (shapeCast S500000 (extractStridedSlice S1x500000 ![1, 0] e Facts₀.slices_S2x500000_S1x500000_1_0) Facts₀.shapeCasts_S1x500000_S500000)
        (ix2 n (0 : Fin 1))
      = e (ix2 (1 : Fin 2) n) := by
  rw [col_at, shapeCast_1a_a_apply]
  exact slice2_axis0_apply 1 e Facts₀.slices_S2x500000_S1x500000_1_0 (0 : Fin 1) n (1 : Fin 2) rfl

/-- The row gather of the rounded z at a column of start words, at (n, j). -/
theorem gather_at (z : FVec Ideal S100000x128 .f32) (idx : IVec S500000x1 32) (n : Fin 500000) (j : Fin 128) :
    Host.gather gather_S100000x128_S500000x1_S500000x128_1_0_n_n_0_1_1128 (truncf .bf16 z Facts₀.bitsLt_bf16_f32) idx (ix2 n j)
      = z (ix2 (node (idx (ix2 n (0 : Fin 1)))) j) :=
  Cert.Lib.RowGS.gather_rows_apply (α := EReal) (N := 100000) (D := 128) (E := 500000) (w := 32) (by omega)
    gather_S100000x128_S500000x1_S500000x128_1_0_n_n_0_1_1128
    rfl rfl rfl rfl rfl rfl rfl (truncf .bf16 z Facts₀.bitsLt_bf16_f32) idx n j

/-! ## What the region finds -/

theorem g0_eq (c : Dev nD) : (V m c main_v5 : S500000x128.Idx → EReal)
    = Host.gather gather_S100000x128_S500000x1_S500000x128_1_0_n_n_0_1_1128 (truncf .bf16 (zA m c) Facts₀.bitsLt_bf16_f32)
        (broadcastInDim (s := S500000) S500000x1 ![0] Facts₀.bcast_S500000_S500000x1_0
          (shapeCast S500000 (extractStridedSlice S1x500000 ![0, 0] (eA m c) Facts₀.slices_S2x500000_S1x500000_0_0) Facts₀.shapeCasts_S1x500000_S500000)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem g1_eq (c : Dev nD) : (V m c main_v6 : S500000x128.Idx → EReal)
    = Host.gather gather_S100000x128_S500000x1_S500000x128_1_0_n_n_0_1_1128 (truncf .bf16 (zA m c) Facts₀.bitsLt_bf16_f32)
        (broadcastInDim (s := S500000) S500000x1 ![0] Facts₀.bcast_S500000_S500000x1_0
          (shapeCast S500000 (extractStridedSlice S1x500000 ![1, 0] (eA m c) Facts₀.slices_S2x500000_S1x500000_1_0) Facts₀.shapeCasts_S1x500000_S500000)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem wa_eq (c : Dev nD) : (V m c main_v8 : S128x256.Idx → EReal)
    = truncf .bf16 (extractStridedSlice S128x256 ![0, 0] (w1A m c) Facts₀.slices_S256x256_S128x256_0_0) Facts₀.bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results

theorem wb_eq (c : Dev nD) : (V m c main_v10 : S128x256.Idx → EReal)
    = truncf .bf16 (extractStridedSlice S128x256 ![128, 0] (w1A m c) Facts₀.slices_S256x256_S128x256_128_0) Facts₀.bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results

theorem b1row_eq (c : Dev nD) : (V m c main_v11 : S1x256.Idx → EReal)
    = shapeCast S1x256 (b1A m c) Facts₀.shapeCasts_S256_S1x256 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem w2row_eq (c : Dev nD) : (V m c main_v12 : S1x256.Idx → EReal)
    = shapeCast S1x256 (w2A m c) Facts₀.shapeCasts_S256x1_S1x256 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem b2cell_eq (c : Dev nD) : (V m c main_v13 : S1x1.Idx → EReal)
    = shapeCast S1x1 (b2A m c) Facts₀.shapeCasts_S1_S1x1 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem sbcell_eq (c : Dev nD) : (V m c main_v14 : S1x1.Idx → EReal)
    = shapeCast S1x1 (sbA m c) Facts₀.shapeCasts_S1_S1x1 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-! ## … read at an index -/

/-- Endpoint 0's gathered features: row n is the features of the node that word (0, n) of the edge list names. -/
theorem g0_at (c : Dev nD) (n : Fin 500000) (j : Fin 128) :
    (V m c main_v5 : S500000x128.Idx → EReal) (ix2 n j) = feat (zA m c) (eA m c) 0 n j := by
  rw [g0_eq, gather_at, col0_at]
  rfl

/-- Endpoint 1's gathered features. -/
theorem g1_at (c : Dev nD) (n : Fin 500000) (j : Fin 128) :
    (V m c main_v6 : S500000x128.Idx → EReal) (ix2 n j) = feat (zA m c) (eA m c) 1 n j := by
  rw [g1_eq, gather_at, col1_at]
  rfl

/-- The top half of W1. -/
theorem wa_at (c : Dev nD) (j : Fin 128) (k : Fin 256) :
    (V m c main_v8 : S128x256.Idx → EReal) (ix2 j k) = w1A m c (ix2 (lo j) k) := by
  rw [wa_eq]
  show extractStridedSlice S128x256 ![0, 0] (w1A m c) Facts₀.slices_S256x256_S128x256_0_0 (ix2 j k) = _
  exact slice2_axis0_apply 0 (w1A m c) Facts₀.slices_S256x256_S128x256_0_0 j k (lo j) (by show j.val = 0 + j.val; omega)

/-- The bottom half of W1. -/
theorem wb_at (c : Dev nD) (j : Fin 128) (k : Fin 256) :
    (V m c main_v10 : S128x256.Idx → EReal) (ix2 j k) = w1A m c (ix2 (hi j) k) := by
  rw [wb_eq]
  show extractStridedSlice S128x256 ![128, 0] (w1A m c) Facts₀.slices_S256x256_S128x256_128_0 (ix2 j k) = _
  exact slice2_axis0_apply 128 (w1A m c) Facts₀.slices_S256x256_S128x256_128_0 j k (hi j) rfl

/-- The first layer's bias as a row. -/
theorem b1row_at (c : Dev nD) (k : Fin 256) :
    (V m c main_v11 : S1x256.Idx → EReal) (ix2 (0 : Fin 1) k) = b1A m c (ix1 k) := by
  rw [b1row_eq]
  exact shapeCast_a_1a_apply (b1A m c) Facts₀.shapeCasts_S256_S1x256 0 k

/-- The second layer's one column as a row. -/
theorem w2row_at (c : Dev nD) (k : Fin 256) :
    (V m c main_v12 : S1x256.Idx → EReal) (ix2 (0 : Fin 1) k) = w2A m c (ix2 k (0 : Fin 1)) := by
  rw [w2row_eq]
  refine shapeCast_apply (w2A m c) Facts₀.shapeCasts_S256x1_S1x256 _ _ ?_
  rw [Shape.rowMajor_val_two, Shape.rowMajor_val_two]
  show k.val * 1 + 0 = 0 * 256 + k.val
  omega

/-- The second layer's bias as a 1 × 1 array. -/
theorem b2cell_at (c : Dev nD) :
    (V m c main_v13 : S1x1.Idx → EReal) (ix2 (0 : Fin 1) (0 : Fin 1)) = b2A m c (ix1 (0 : Fin 1)) := by
  rw [b2cell_eq]
  exact shapeCast_a_1a_apply (b2A m c) Facts₀.shapeCasts_S1_S1x1 0 0

/-- The bias under the logistic as a 1 × 1 array. -/
theorem sbcell_at (c : Dev nD) :
    (V m c main_v14 : S1x1.Idx → EReal) (ix2 (0 : Fin 1) (0 : Fin 1)) = sbA m c (ix1 (0 : Fin 1)) := by
  rw [sbcell_eq]
  exact shapeCast_a_1a_apply (sbA m c) Facts₀.shapeCasts_S1_S1x1 0 0

end Cert.EdgeMlp.Kern

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelBody.lean ====
/-
  What the kernel body computes for one row of a tile.

  The body takes a tile of 4000 source rows g0 and 4000 destination rows g1 (128 features each), the two halves
  wa, wb of the first layer's weights, its bias row, the second layer's weights as a row, and the two scalar
  biases. For row r it forms, per hidden unit k, max(Σ_j g0[r, j]·wa[j, k] + Σ_j g1[r, j]·wb[j, k] + b1[k], 0),
  sums the units against the second layer's row, adds the two biases and applies the logistic: the forward score
  of row r. The second output is the same with the roles of g0 and g1 exchanged: the reversed edge's score.
-/
import proofs.«422551_j63230508532406_3_alg».proof.Proof.Gen.KernelIdeal.Skeleton
import proofs.«422551_j63230508532406_3_alg».proof.Proof.EdgeScore
import proofs.«422551_j63230508532406_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.EdgeMlp.Body

open Idealize.ShloMosaic Idealize.ShloMosaic.ValueIdx Cert.KernelIdeal Cert.EdgeMlp
open scoped BigOperators

open Cert.KernelIdeal.Facts₀

theorem lhs_dot_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_dot_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_dot_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_dot_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A tile's product with a weight half, into the zero accumulator, at (r, k): the sum over the 128 features. -/
theorem matmul_at (l : FVec Ideal S4000x128 .bf16) (w : FVec Ideal S128x256 .bf16) (r : Fin 4000) (k : Fin 256) :
    matmul dot_S4000x128_S128x256_S4000x256_1_0_0_1_n_n none l w (constant S4000x256 .f32 0x00000000#32) (ix2 r k)
      = ∑ j : Fin 128, l (ix2 r j) * w (ix2 j k) := by
  simp only [matmul]
  rw [Ideal.matmul_constant_zero_apply, ← Equiv.sum_comp (ValueIdx.contrEquiv1 dot_S4000x128_S128x256_S4000x256_1_0_0_1_n_n 128 rfl rfl).symm]
  refine Finset.sum_congr rfl fun j _ => ?_
  have hk := ValueIdx.contrEquiv1_symm_val dot_S4000x128_S128x256_S4000x256_1_0_0_1_n_n 128 rfl rfl j
  have el : dot_S4000x128_S128x256_S4000x256_1_0_0_1_n_n.lhsIdx (ix2 r k) ((ValueIdx.contrEquiv1 dot_S4000x128_S128x256_S4000x256_1_0_0_1_n_n 128 rfl rfl).symm j) = ix2 r j := funext fun a => Fin.ext (by
    match a with
    | ⟨0, _⟩ => exact lhs_dot_0 _ _
    | ⟨1, _⟩ => exact (lhs_dot_1 _ _).trans hk)
  have er : dot_S4000x128_S128x256_S4000x256_1_0_0_1_n_n.rhsIdx (ix2 r k) ((ValueIdx.contrEquiv1 dot_S4000x128_S128x256_S4000x256_1_0_0_1_n_n 128 rfl rfl).symm j) = ix2 j k := funext fun a => Fin.ext (by
    match a with
    | ⟨0, _⟩ => exact (rhs_dot_0 _ _).trans hk
    | ⟨1, _⟩ => exact rhs_dot_1 _ _)
  rw [el, er]

/-- The rectified first layer at (r, k), from the two products and the bias row. -/
theorem hidden_at (A B : FVec Ideal S4000x256 .f32) (c : FVec Ideal S1x256 .f32) (r : Fin 4000) (k : Fin 256) :
    maximumf (addf (addf A B) (broadcastTo S4000x256 c broadcasts_S1x256_S4000x256))
        (broadcast S4000x256 (Scalar.ofBits (F := Ideal) .f32 0x00000000#32)) (ix2 r k)
      = max ((A (ix2 r k) + B (ix2 r k)) + c (ix2 (0 : Fin 1) k)) 0 := by
  show max ((A (ix2 r k) + B (ix2 r k)) + broadcastTo S4000x256 c broadcasts_S1x256_S4000x256 (ix2 r k))
      (Ideal.ofBits .f32 0x00000000#32) = _
  rw [broadcastTo_1b_ab_apply, Ideal.ofBits_zero_f32]

/-- The lane sum of a 4000 × 256 tile, kept as a column, at (r, 0): the sum of row r. -/
theorem rowsum_at (X : FVec Ideal S4000x256 .f32) (hacc : (0x00000000#32 : BitVec 32) = 0x00000000#32) (r : Fin 4000) :
    shapeCast S4000x1 (multiReduction .add [1] S4000 X 0x00000000#32 reduces_S4000x256_S4000 (.inl rfl) hacc) shapeCasts_S4000_S4000x1
        (ix2 r (0 : Fin 1))
      = ∑ k : Fin 256, X (ix2 r k) := by
  refine (Cert.Lib.Column.shapeCast_a_a1_apply _ shapeCasts_S4000_S4000x1 r 0).trans ?_
  refine (Ideal.multiReduction_add_single X 0x00000000#32 reduces_S4000x256_S4000 (.inl rfl) hacc (ix1 r)).trans ?_
  refine Finset.sum_congr rfl fun k _ => congrArg X ?_
  funext a
  match a with
  | ⟨0, _⟩ => exact Fin.ext rfl
  | ⟨1, _⟩ => exact Fin.ext rfl

/-- The logit column plus the two scalar biases, under the logistic, at (r, 0). -/
theorem logit_at (Y : FVec Ideal S4000x1 .f32) (d s : FVec Ideal S1x1 .f32) (r : Fin 4000) :
    logistic (addf (addf Y (broadcastTo S4000x1 d broadcasts_S1x1_S4000x1)) (broadcastTo S4000x1 s broadcasts_S1x1_S4000x1))
        (ix2 r (0 : Fin 1))
      = Ideal.logistic ((Y (ix2 r (0 : Fin 1)) + d (ix2 (0 : Fin 1) (0 : Fin 1))) + s (ix2 (0 : Fin 1) (0 : Fin 1))) := by
  show Ideal.logistic ((Y (ix2 r (0 : Fin 1)) + broadcastTo S4000x1 d broadcasts_S1x1_S4000x1 (ix2 r (0 : Fin 1)))
      + broadcastTo S4000x1 s broadcasts_S1x1_S4000x1 (ix2 r (0 : Fin 1))) = _
  rw [broadcastTo_1b_ab_apply, broadcastTo_1b_ab_apply]

/-- One hidden unit times its second-layer weight, at (r, k). -/
theorem unit_at (A B : FVec Ideal S4000x256 .f32) (c v : FVec Ideal S1x256 .f32) (r : Fin 4000) (k : Fin 256) :
    mulf (maximumf (addf (addf A B) (broadcastTo S4000x256 c Facts₀.broadcasts_S1x256_S4000x256))
        (broadcast S4000x256 (Scalar.ofBits (F := Ideal) .f32 0x00000000#32)))
      (broadcastTo S4000x256 v Facts₀.broadcasts_S1x256_S4000x256) (ix2 r k)
      = max ((A (ix2 r k) + B (ix2 r k)) + c (ix2 (0 : Fin 1) k)) 0 * v (ix2 (0 : Fin 1) k) := by
  show maximumf _ _ (ix2 r k) * broadcastTo S4000x256 v Facts₀.broadcasts_S1x256_S4000x256 (ix2 r k) = _
  rw [hidden_at, broadcastTo_1b_ab_apply]

/-- THE FIRST OUTPUT'S PAYLOAD at row r: the score of the edge from g0's row to g1's row. -/
theorem fwd_row (g0 g1 : FVec Ideal S4000x128 .bf16) (wa wb : FVec Ideal S128x256 .bf16) (c v : FVec Ideal S1x256 .f32)
    (d s : FVec Ideal S1x1 .f32) (r : Fin 4000) :
    Gen.k0_pay10 (F := Ideal) g0 g1 wa wb c v d s (ix2 r (0 : Fin 1))
      = scoreOf (fun j => g0 (ix2 r j)) (fun j => g1 (ix2 r j)) (fun j k => wa (ix2 j k)) (fun j k => wb (ix2 j k))
          (fun k => c (ix2 (0 : Fin 1) k)) (fun k => v (ix2 (0 : Fin 1) k))
          (d (ix2 (0 : Fin 1) (0 : Fin 1))) (s (ix2 (0 : Fin 1) (0 : Fin 1))) := by
  unfold Gen.k0_pay10 Gen.k0_pay2 Gen.k0_pay3 Gen.k0_pay4 Gen.k0_pay5 Gen.k0_pay6 Gen.k0_pay7 Gen.k0_pay8 Gen.k0_pay9
  simp only [shapeCast_self]
  refine (logit_at _ d s r).trans ?_
  unfold scoreOf hiddenOf
  refine congrArg (fun x => Ideal.logistic ((x + _) + _)) ?_
  refine (rowsum_at _ rfl r).trans ?_
  refine Finset.sum_congr rfl fun k _ => ?_
  refine (unit_at _ _ c v r k).trans ?_
  rw [matmul_at, matmul_at]

/-- THE SECOND OUTPUT'S PAYLOAD at row r: the score of the reversed edge, from g1's row to g0's row. -/
theorem bwd_row (g0 g1 : FVec Ideal S4000x128 .bf16) (wa wb : FVec Ideal S128x256 .bf16) (c v : FVec Ideal S1x256 .f32)
    (d s : FVec Ideal S1x1 .f32) (r : Fin 4000) :
    Gen.k0_pay1 (F := Ideal) (Gen.k0_pay2 g0) (Gen.k0_pay5 wb) (Gen.k0_pay6 c) (Gen.k0_pay7 v) (Gen.k0_pay8 d) (Gen.k0_pay9 s)
        (Gen.k0_pay11 g1 wa) (constant S4000x256 .f32 0x00000000#32) (ix2 r (0 : Fin 1))
      = scoreOf (fun j => g1 (ix2 r j)) (fun j => g0 (ix2 r j)) (fun j k => wa (ix2 j k)) (fun j k => wb (ix2 j k))
          (fun k => c (ix2 (0 : Fin 1) k)) (fun k => v (ix2 (0 : Fin 1) k))
          (d (ix2 (0 : Fin 1) (0 : Fin 1))) (s (ix2 (0 : Fin 1) (0 : Fin 1))) := by
  unfold Gen.k0_pay1 Gen.k0_pay11 Gen.k0_pay2 Gen.k0_pay3 Gen.k0_pay4 Gen.k0_pay5 Gen.k0_pay6 Gen.k0_pay7 Gen.k0_pay8 Gen.k0_pay9
  simp only [shapeCast_self]
  refine (logit_at _ d s r).trans ?_
  unfold scoreOf hiddenOf
  refine congrArg (fun x => Ideal.logistic ((x + _) + _)) ?_
  refine (rowsum_at _ rfl r).trans ?_
  refine Finset.sum_congr rfl fun k _ => ?_
  refine (unit_at _ _ c v r k).trans ?_
  rw [matmul_at, matmul_at]

end Cert.EdgeMlp.Body

end
-- ==== Proof.KernelValue.lean ====
/-
  The kernel's two result columns after the run, and its result array.

  Grid point t handles undirected edges 4000·t … 4000·t + 3999: it reads those rows of the two gathered feature
  arrays and the whole of every parameter array, and writes rows 4000·t … of the two score columns: the forward
  score of each edge into the first, the reversed edge's score into the second. The 125 blocks tile each column, so
  after the run the first column holds every forward score and the second every reversed one; the host then
  stacks the two columns and flattens them: the array of all 1,000,000 scores.
-/
import proofs.«422551_j63230508532406_3_alg».proof.Proof.Gen.KernelIdeal.Frame
import proofs.«422551_j63230508532406_3_alg».proof.Proof.KernelArrays
import proofs.«422551_j63230508532406_3_alg».proof.Proof.KernelBody

set_option maxRecDepth 16384

noncomputable section

namespace Cert.EdgeMlp.Kern

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.EdgeMlp

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two feature windows and the two score windows move one block of rows
    per point; every parameter window stays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem point_lt (t : Fin cfg0.N) : t.val < 125 :=
  lt_of_lt_of_eq t.isLt N_0

/-- The undirected edge that row r of point t's tile is. -/
def rowOf (t : Fin cfg0.N) (r : Fin 4000) : Fin 500000 :=
  ⟨4000 * t.val + r.val, by have := point_lt t; have := r.isLt; omega⟩

/-! ## The input blocks at a point -/

theorem g0blk_at (c : Dev nD) (t : Fin cfg0.N) (r : Fin 4000) (j : Fin 128) :
    (iblk m c 0 t : FVec Ideal S4000x128 .bf16) (ix2 r j) = feat (zA m c) (eA m c) 0 (rowOf t r) j := by
  obtain ⟨⟨h0, h1⟩, -⟩ := idx_facts t
  refine Eq.trans ?_ (g0_at m c (rowOf t r) j)
  unfold iblk
  rw [View.read_apply]
  show V m c main_v5 _ = V m c main_v5 _
  congr 1
  funext a
  apply Fin.ext
  match a with
  | ⟨0, _⟩ => show win0_0.index t (0 : Fin 2) * 4000 + 1 * r.val = 4000 * t.val + r.val; rw [h0]; omega
  | ⟨1, _⟩ => show win0_0.index t (1 : Fin 2) * 128 + 1 * j.val = j.val; rw [h1]; omega

theorem g1blk_at (c : Dev nD) (t : Fin cfg0.N) (r : Fin 4000) (j : Fin 128) :
    (iblk m c 1 t : FVec Ideal S4000x128 .bf16) (ix2 r j) = feat (zA m c) (eA m c) 1 (rowOf t r) j := by
  obtain ⟨-, ⟨h0, h1⟩, -⟩ := idx_facts t
  refine Eq.trans ?_ (g1_at m c (rowOf t r) j)
  unfold iblk
  rw [View.read_apply]
  show V m c main_v6 _ = V m c main_v6 _
  congr 1
  funext a
  apply Fin.ext
  match a with
  | ⟨0, _⟩ => show win0_1.index t (0 : Fin 2) * 4000 + 1 * r.val = 4000 * t.val + r.val; rw [h0]; omega
  | ⟨1, _⟩ => show win0_1.index t (1 : Fin 2) * 128 + 1 * j.val = j.val; rw [h1]; omega

theorem wablk_at (c : Dev nD) (t : Fin cfg0.N) (j : Fin 128) (k : Fin 256) :
    (iblk m c 2 t : FVec Ideal S128x256 .bf16) (ix2 j k) = w1A m c (ix2 (lo j) k) := by
  obtain ⟨-, -, ⟨h0, h1⟩, -⟩ := idx_facts t
  refine Eq.trans ?_ (wa_at m c j k)
  unfold iblk
  rw [View.read_apply]
  show V m c main_v8 _ = V m c main_v8 _
  congr 1
  funext a
  apply Fin.ext
  match a with
  | ⟨0, _⟩ => show win0_2.index t (0 : Fin 2) * 128 + 1 * j.val = j.val; rw [h0]; omega
  | ⟨1, _⟩ => show win0_2.index t (1 : Fin 2) * 256 + 1 * k.val = k.val; rw [h1]; omega

theorem wbblk_at (c : Dev nD) (t : Fin cfg0.N) (j : Fin 128) (k : Fin 256) :
    (iblk m c 3 t : FVec Ideal S128x256 .bf16) (ix2 j k) = w1A m c (ix2 (hi j) k) := by
  obtain ⟨-, -, -, ⟨h0, h1⟩, -⟩ := idx_facts t
  refine Eq.trans ?_ (wb_at m c j k)
  unfold iblk
  rw [View.read_apply]
  show V m c main_v10 _ = V m c main_v10 _
  congr 1
  funext a
  apply Fin.ext
  match a with
  | ⟨0, _⟩ => show win0_3.index t (0 : Fin 2) * 128 + 1 * j.val = j.val; rw [h0]; omega
  | ⟨1, _⟩ => show win0_3.index t (1 : Fin 2) * 256 + 1 * k.val = k.val; rw [h1]; omega

theorem b1blk_at (c : Dev nD) (t : Fin cfg0.N) (k : Fin 256) :
    (iblk m c 4 t : FVec Ideal S1x256 .f32) (ix2 (0 : Fin 1) k) = b1A m c (ix1 k) := by
  obtain ⟨-, -, -, -, ⟨h0, h1⟩, -⟩ := idx_facts t
  refine Eq.trans ?_ (b1row_at m c k)
  unfold iblk
  rw [View.read_apply]
  show V m c main_v11 _ = V m c main_v11 _
  congr 1
  funext a
  apply Fin.ext
  match a with
  | ⟨0, _⟩ => show win0_4.index t (0 : Fin 2) * 1 + 1 * 0 = 0; rw [h0]
  | ⟨1, _⟩ => show win0_4.index t (1 : Fin 2) * 256 + 1 * k.val = k.val; rw [h1]; omega

theorem w2blk_at (c : Dev nD) (t : Fin cfg0.N) (k : Fin 256) :
    (iblk m c 5 t : FVec Ideal S1x256 .f32) (ix2 (0 : Fin 1) k) = w2A m c (ix2 k (0 : Fin 1)) := by
  obtain ⟨-, -, -, -, -, ⟨h0, h1⟩, -⟩ := idx_facts t
  refine Eq.trans ?_ (w2row_at m c k)
  unfold iblk
  rw [View.read_apply]
  show V m c main_v12 _ = V m c main_v12 _
  congr 1
  funext a
  apply Fin.ext
  match a with
  | ⟨0, _⟩ => show win0_5.index t (0 : Fin 2) * 1 + 1 * 0 = 0; rw [h0]
  | ⟨1, _⟩ => show win0_5.index t (1 : Fin 2) * 256 + 1 * k.val = k.val; rw [h1]; omega

theorem b2blk_at (c : Dev nD) (t : Fin cfg0.N) :
    (iblk m c 6 t : FVec Ideal S1x1 .f32) (ix2 (0 : Fin 1) (0 : Fin 1)) = b2A m c (ix1 (0 : Fin 1)) := by
  obtain ⟨-, -, -, -, -, -, ⟨h0, h1⟩, -⟩ := idx_facts t
  refine Eq.trans ?_ (b2cell_at m c)
  unfold iblk
  rw [View.read_apply]
  show V m c main_v13 _ = V m c main_v13 _
  congr 1
  funext a
  apply Fin.ext
  match a with
  | ⟨0, _⟩ => show win0_6.index t (0 : Fin 2) * 1 + 1 * 0 = 0; rw [h0]
  | ⟨1, _⟩ => show win0_6.index t (1 : Fin 2) * 1 + 1 * 0 = 0; rw [h1]

theorem sbblk_at (c : Dev nD) (t : Fin cfg0.N) :
    (iblk m c 7 t : FVec Ideal S1x1 .f32) (ix2 (0 : Fin 1) (0 : Fin 1)) = sbA m c (ix1 (0 : Fin 1)) := by
  obtain ⟨-, -, -, -, -, -, -, ⟨h0, h1⟩, -⟩ := idx_facts t
  refine Eq.trans ?_ (sbcell_at m c)
  unfold iblk
  rw [View.read_apply]
  show V m c main_v14 _ = V m c main_v14 _
  congr 1
  funext a
  apply Fin.ext
  match a with
  | ⟨0, _⟩ => show win0_7.index t (0 : Fin 2) * 1 + 1 * 0 = 0; rw [h0]
  | ⟨1, _⟩ => show win0_7.index t (1 : Fin 2) * 1 + 1 * 0 = 0; rw [h1]

/-! ## What a point leaves in the two output buffers -/

/-- The first output buffer after point t: the forward scores of the point's 4000 edges. -/
theorem out8_eq (c : Dev nD) (t : Fin cfg0.N) :
    (out0_8 (iblk m c 0 t) (iblk m c 1 t) (iblk m c 2 t) (iblk m c 3 t) (iblk m c 4 t) (iblk m c 5 t) (iblk m c 6 t) (iblk m c 7 t) : Vec Ideal S4000x1 .f32)
      = fun y => fwd (zA m c) (eA m c) (w1A m c) (b1A m c) (w2A m c) (b2A m c) (sbA m c) (rowOf t ⟨(y 0).val, idx2_lt0 y⟩) := by
  funext y
  obtain ⟨r, u, rfl⟩ : ∃ (r : Fin 4000) (u : Fin 1), y = ix2 r u := ⟨y 0, y 1, eq_ix2 y⟩
  obtain rfl : u = 0 := Subsingleton.elim _ _
  unfold out0_8
  rw [View.canon_unit_zero hz]
  simp only [View.ld_unit_zero (S := S4000x128) hz, View.ld_unit_zero (S := S128x256) hz, View.ld_unit_zero (S := S1x256) hz,
    View.ld_unit_zero (S := S1x1) hz]
  refine (Body.fwd_row (iblk m c 0 t) (iblk m c 1 t) (iblk m c 2 t) (iblk m c 3 t) (iblk m c 4 t) (iblk m c 5 t) (iblk m c 6 t)
    (iblk m c 7 t) r).trans ?_
  unfold fwd score
  have e0 : (fun j => (iblk m c 0 t : FVec Ideal S4000x128 .bf16) (ix2 r j)) = feat (zA m c) (eA m c) 0 (rowOf t r) :=
    funext fun j => g0blk_at m c t r j
  have e1 : (fun j => (iblk m c 1 t : FVec Ideal S4000x128 .bf16) (ix2 r j)) = feat (zA m c) (eA m c) 1 (rowOf t r) :=
    funext fun j => g1blk_at m c t r j
  have e2 : (fun j k => (iblk m c 2 t : FVec Ideal S128x256 .bf16) (ix2 j k)) = fun j k => w1A m c (ix2 (lo j) k) :=
    funext fun j => funext fun k => wablk_at m c t j k
  have e3 : (fun j k => (iblk m c 3 t : FVec Ideal S128x256 .bf16) (ix2 j k)) = fun j k => w1A m c (ix2 (hi j) k) :=
    funext fun j => funext fun k => wbblk_at m c t j k
  have e4 : (fun k => (iblk m c 4 t : FVec Ideal S1x256 .f32) (ix2 (0 : Fin 1) k)) = fun k => b1A m c (ix1 k) :=
    funext fun k => b1blk_at m c t k
  have e5 : (fun k => (iblk m c 5 t : FVec Ideal S1x256 .f32) (ix2 (0 : Fin 1) k)) = fun k => w2A m c (ix2 k (0 : Fin 1)) :=
    funext fun k => w2blk_at m c t k
  rw [e0, e1, e2, e3, e4, e5, b2blk_at m c t, sbblk_at m c t]

/-- The second output buffer after point t: the reversed edges' scores. -/
theorem out9_eq (c : Dev nD) (t : Fin cfg0.N) :
    (out0_9 (iblk m c 0 t) (iblk m c 1 t) (iblk m c 2 t) (iblk m c 3 t) (iblk m c 4 t) (iblk m c 5 t) (iblk m c 6 t) (iblk m c 7 t) : Vec Ideal S4000x1 .f32)
      = fun y => bwd (zA m c) (eA m c) (w1A m c) (b1A m c) (w2A m c) (b2A m c) (sbA m c) (rowOf t ⟨(y 0).val, idx2_lt0 y⟩) := by
  funext y
  obtain ⟨r, u, rfl⟩ : ∃ (r : Fin 4000) (u : Fin 1), y = ix2 r u := ⟨y 0, y 1, eq_ix2 y⟩
  obtain rfl : u = 0 := Subsingleton.elim _ _
  unfold out0_9
  rw [View.canon_unit_zero hz]
  simp only [View.ld_unit_zero (S := S4000x128) hz, View.ld_unit_zero (S := S128x256) hz, View.ld_unit_zero (S := S1x256) hz,
    View.ld_unit_zero (S := S1x1) hz]
  refine (Body.bwd_row (iblk m c 0 t) (iblk m c 1 t) (iblk m c 2 t) (iblk m c 3 t) (iblk m c 4 t) (iblk m c 5 t) (iblk m c 6 t)
    (iblk m c 7 t) r).trans ?_
  unfold bwd score
  have e0 : (fun j => (iblk m c 0 t : FVec Ideal S4000x128 .bf16) (ix2 r j)) = feat (zA m c) (eA m c) 0 (rowOf t r) :=
    funext fun j => g0blk_at m c t r j
  have e1 : (fun j => (iblk m c 1 t : FVec Ideal S4000x128 .bf16) (ix2 r j)) = feat (zA m c) (eA m c) 1 (rowOf t r) :=
    funext fun j => g1blk_at m c t r j
  have e2 : (fun j k => (iblk m c 2 t : FVec Ideal S128x256 .bf16) (ix2 j k)) = fun j k => w1A m c (ix2 (lo j) k) :=
    funext fun j => funext fun k => wablk_at m c t j k
  have e3 : (fun j k => (iblk m c 3 t : FVec Ideal S128x256 .bf16) (ix2 j k)) = fun j k => w1A m c (ix2 (hi j) k) :=
    funext fun j => funext fun k => wbblk_at m c t j k
  have e4 : (fun k => (iblk m c 4 t : FVec Ideal S1x256 .f32) (ix2 (0 : Fin 1) k)) = fun k => b1A m c (ix1 k) :=
    funext fun k => b1blk_at m c t k
  have e5 : (fun k => (iblk m c 5 t : FVec Ideal S1x256 .f32) (ix2 (0 : Fin 1) k)) = fun k => w2A m c (ix2 k (0 : Fin 1)) :=
    funext fun k => w2blk_at m c t k
  rw [e0, e1, e2, e3, e4, e5, b2blk_at m c t, sbblk_at m c t]

/-! ## The two score columns after the run -/

/-- The column of forward scores. -/
def fwdCol (c : Dev nD) : S500000x1.Idx → EReal := fun i =>
  fwd (zA m c) (eA m c) (w1A m c) (b1A m c) (w2A m c) (b2A m c) (sbA m c) ⟨(i 0).val, idx2_lt0 i⟩

/-- The column of reversed edges' scores. -/
def bwdCol (c : Dev nD) : S500000x1.Idx → EReal := fun i =>
  bwd (zA m c) (eA m c) (w1A m c) (b1A m c) (w2A m c) (b2A m c) (sbA m c) ⟨(i 0).val, idx2_lt0 i⟩

/-- Block t of the forward column, read at row y of the block: the forward score of edge 4000·t + y. -/
theorem read8 (c : Dev nD) (t : Fin cfg0.N) (y : S4000x1.Idx) :
    ((cfg0.win 8).blk t).view.read (Elt Ideal) (fwdCol m c) y
      = fwd (zA m c) (eA m c) (w1A m c) (b1A m c) (w2A m c) (b2A m c) (sbA m c) (rowOf t ⟨(y 0).val, idx2_lt0 y⟩) := by
  obtain ⟨-, -, -, -, -, -, -, -, ⟨h0, h1⟩, -⟩ := idx_facts t
  rw [View.read_apply]
  show fwdCol m c _ = _
  unfold fwdCol
  congr 1
  apply Fin.ext
  show win0_8.index t (0 : Fin 2) * 4000 + 1 * (y 0).val = 4000 * t.val + (y 0).val
  rw [h0]
  omega

/-- Block t of the reversed column, read at row y of the block. -/
theorem read9 (c : Dev nD) (t : Fin cfg0.N) (y : S4000x1.Idx) :
    ((cfg0.win 9).blk t).view.read (Elt Ideal) (bwdCol m c) y
      = bwd (zA m c) (eA m c) (w1A m c) (b1A m c) (w2A m c) (b2A m c) (sbA m c) (rowOf t ⟨(y 0).val, idx2_lt0 y⟩) := by
  obtain ⟨-, -, -, -, -, -, -, -, -, ⟨h0, h1⟩⟩ := idx_facts t
  rw [View.read_apply]
  show bwdCol m c _ = _
  unfold bwdCol
  congr 1
  apply Fin.ext
  show win0_9.index t (0 : Fin 2) * 4000 + 1 * (y 0).val = 4000 * t.val + (y 0).val
  rw [h0]
  omega

/-- Point t writes back rows 4000·t … of the forward column. -/
theorem flushed8_eq (c : Dev nD) (t : Fin cfg0.N) :
    (dats m 0 c).flushed 8 t = ((cfg0.win 8).blk t).view.read (Elt Ideal) (fwdCol m c) := by
  show (cfg0.win 8).cut (grid0.coords t) ((dats m 0 c).after 8 t) = _
  rw [after0_8, out8_eq]
  exact (funext fun y => (read8 m c t y).symm)

/-- Point t writes back rows 4000·t … of the reversed column. -/
theorem flushed9_eq (c : Dev nD) (t : Fin cfg0.N) :
    (dats m 0 c).flushed 9 t = ((cfg0.win 9).blk t).view.read (Elt Ideal) (bwdCol m c) := by
  show (cfg0.win 9).cut (grid0.coords t) ((dats m 0 c).after 9 t) = _
  rw [after0_9, out9_eq]
  exact (funext fun y => (read9 m c t y).symm)

/-- Every row of the forward column is in the block of the point its row number divided by 4000 names. -/
theorem cover8 (i : S500000x1.Idx) :
    ∃ t : Fin cfg0.N, (cfg0.win 8).flush t = true ∧ i ∈ ((cfg0.win 8).blk t).view.set := by
  have hi0 : (i 0).val < 500000 := idx2_lt0 i
  have hi1 : (i 1).val < 1 := idx2_lt1 i
  have ht : (i 0).val / 4000 < cfg0.N := by rw [show cfg0.N = 125 from N_0]; omega
  obtain ⟨-, -, -, -, -, -, -, -, ⟨h0, h1⟩, -⟩ := idx_facts ⟨(i 0).val / 4000, ht⟩
  refine ⟨⟨(i 0).val / 4000, ht⟩, flush0_8 _, ?_⟩
  show i ∈ ((View.whole main_v15_0).slice (win0_8.rect ⟨(i 0).val / 4000, ht⟩)).set
  rw [View.set_slice_whole, Rect.mem_set_unit]
  intro a
  match a with
  | ⟨0, _⟩ =>
    show win0_8.index ⟨(i 0).val / 4000, ht⟩ (0 : Fin 2) * 4000 ≤ (i 0).val
      ∧ (i 0).val < win0_8.index ⟨(i 0).val / 4000, ht⟩ (0 : Fin 2) * 4000 + 4000
    rw [h0]
    show (i 0).val / 4000 * 4000 ≤ (i 0).val ∧ (i 0).val < (i 0).val / 4000 * 4000 + 4000
    omega
  | ⟨1, _⟩ =>
    show win0_8.index ⟨(i 0).val / 4000, ht⟩ (1 : Fin 2) * 1 ≤ (i 1).val
      ∧ (i 1).val < win0_8.index ⟨(i 0).val / 4000, ht⟩ (1 : Fin 2) * 1 + 1
    rw [h1]
    omega

theorem cover9 (i : S500000x1.Idx) :
    ∃ t : Fin cfg0.N, (cfg0.win 9).flush t = true ∧ i ∈ ((cfg0.win 9).blk t).view.set := by
  have hi0 : (i 0).val < 500000 := idx2_lt0 i
  have hi1 : (i 1).val < 1 := idx2_lt1 i
  have ht : (i 0).val / 4000 < cfg0.N := by rw [show cfg0.N = 125 from N_0]; omega
  obtain ⟨-, -, -, -, -, -, -, -, -, ⟨h0, h1⟩⟩ := idx_facts ⟨(i 0).val / 4000, ht⟩
  refine ⟨⟨(i 0).val / 4000, ht⟩, flush0_9 _, ?_⟩
  show i ∈ ((View.whole main_v15_1).slice (win0_9.rect ⟨(i 0).val / 4000, ht⟩)).set
  rw [View.set_slice_whole, Rect.mem_set_unit]
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    rw [h0]
    show (i 0).val / 4000 * 4000 ≤ (i 0).val ∧ (i 0).val < (i 0).val / 4000 * 4000 + 4000
    omega
  | ⟨1, _⟩ =>
    show win0_9.index ⟨(i 0).val / 4000, ht⟩ (1 : Fin 2) * 1 ≤ (i 1).val
      ∧ (i 1).val < win0_9.index ⟨(i 0).val / 4000, ht⟩ (1 : Fin 2) * 1 + 1
    rw [h1]
    omega

/-- After the run the first result column holds every forward score. -/
theorem final8 (c : Dev nD) : (dats m 0 c).arrAt 8 cfg0.N = fwdCol m c :=
  (dats m 0 c).arrAt_eq_of_cover 8 (fwdCol m c) (fun t _ => flushed8_eq m c t) cover8

/-- After the run the second result column holds every reversed edge's score. -/
theorem final9 (c : Dev nD) : (dats m 0 c).arrAt 9 cfg0.N = bwdCol m c :=
  (dats m 0 c).arrAt_eq_of_cover 9 (bwdCol m c) (fun t _ => flushed9_eq m c t) cover9

end Cert.EdgeMlp.Kern

end
-- ==== Proof.KernelRun.lean ====
/-
  The kernel's run, read: its result array is the array of edge scores.

  After the region the host stacks the two score columns (forward on top, reversed below) and flattens the
  1000000 × 1 column: entry n of the result is the forward score of edge n for n < 500000 and the reversed score of
  edge n − 500000 otherwise.
-/
import proofs.«422551_j63230508532406_3_alg».proof.Proof.KernelValue

set_option maxRecDepth 16384

noncomputable section

namespace Cert.EdgeMlp.Kern

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.EdgeMlp

variable (m : (ℓ : Loc nD τ sig) → Buf (Elt Ideal) ℓ) (ρ : Dev nD → PrngReg)

/-- Two columns of 500000 stacked and flattened, at n: the first column's entry n, or the second's entry n − 500000. -/
theorem stack_at (A B : S500000x1.Idx → EReal) (n : Fin 1000000) :
    shapeCast S1000000 (concatenate S1000000x1 0 [⟨S500000x1, A⟩, ⟨S500000x1, B⟩] Facts₀.concatenates_S500000x1_S500000x1_S1000000x1_d0)
        Facts₀.shapeCasts_S1000000x1_S1000000 (ix1 n)
      = if h : n.val < 500000 then A (ix2 ⟨n.val, h⟩ (0 : Fin 1))
        else B (ix2 ⟨n.val - 500000, by have := n.isLt; omega⟩ (0 : Fin 1)) := by
  rw [shapeCast_apply _ Facts₀.shapeCasts_S1000000x1_S1000000 (ix1 n) (ix2 n (0 : Fin 1)) (by
    rw [Shape.rowMajor_val_two, Shape.rowMajor_val_one]
    show n.val * 1 + 0 = n.val
    omega)]
  by_cases h : n.val < 500000
  · rw [dif_pos h]
    exact concatenate_pair_apply_left (0 : Fin S1000000x1.rank) A B Facts₀.concatenates_S500000x1_S500000x1_S1000000x1_d0
      (ix2 n (0 : Fin 1)) rfl (ix2 ⟨n.val, h⟩ (0 : Fin 1)) (fun b => by
        match b with
        | ⟨0, _⟩ => rfl
        | ⟨1, _⟩ => rfl)
  · rw [dif_neg h]
    exact concatenate_pair_apply_right (0 : Fin S1000000x1.rank) A B Facts₀.concatenates_S500000x1_S500000x1_S1000000x1_d0
      (ix2 n (0 : Fin 1)) rfl rfl (ix2 ⟨n.val - 500000, by have := n.isLt; omega⟩ (0 : Fin 1)) (fun b hb => by
        match b with
        | ⟨0, _⟩ => exact absurd rfl hb
        | ⟨1, _⟩ => rfl) (by show n.val - 500000 + 500000 = n.val; omega)

/-- THE RESULT ARRAY after the run is the array of edge scores of the argument arrays. -/
theorem result_eq (c : Dev nD) :
    (Pipeline.afterTail₀ cfgs (dats m) 0 (V0 m) [hostOps1] c main_v17 : S1000000.Idx → EReal)
      = scores (zA m c) (eA m c) (w1A m c) (b1A m c) (w2A m c) (b2A m c) (sbA m c) := by
  have h8 : Pipeline.withArrays (cfgs 0).spec c (V0 m c) (fun w => (dats m 0 c).arrAt w (cfgs 0).N) (Proc.devRef .tc main_v15_0)
      = fwdCol m c := (Pipeline.withArrays_arr spec0 launch0.win.arr_inj c _ _ 8).trans (final8 m c)
  have h9 : Pipeline.withArrays (cfgs 0).spec c (V0 m c) (fun w => (dats m 0 c).arrAt w (cfgs 0).N) (Proc.devRef .tc main_v15_1)
      = bwdCol m c := (Pipeline.withArrays_arr spec0 launch0.win.arr_inj c _ _ 9).trans (final9 m c)
  unfold Pipeline.afterTail₀
  show StableHlo.after hostOps1 _ (Proc.devRef .tc main_v17) = _
  after_results
  rw [h8, h9]
  funext i
  obtain ⟨n, rfl⟩ : ∃ n : Fin 1000000, i = ix1 n := ⟨i 0, eq_ix1 i⟩
  refine (stack_at (fwdCol m c) (bwdCol m c) n).trans ?_
  unfold scores fwdCol bwdCol
  by_cases h : n.val < 500000
  · rw [dif_pos h]
  · rw [dif_neg h]

/-- The kernel's run: every weakly fair execution ends with the result array at the edge scores of the arguments, and
    the arguments unchanged. -/
theorem run : θ_run defs (onTc (τ := τ) (main (F := Ideal))) ⟨m, fun _ => 0, ρ⟩ (fun r => ∀ c : Dev nD,
      r.2.mem ((c.tc : Thread nD τ).loc main_v17) = scores (zA m c) (eA m c) (w1A m c) (b1A m c) (w2A m c) (b2A m c) (sbA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.EdgeMlp.Kern

end
-- ==== Proof.lean ====
/- The proof of `Cert.Claim`: a link-prediction head over a symmetrised edge list.

   Both programs score every directed edge (u → v) of the symmetrised graph — the 500000 given edges, then their
   reverses — by a two-layer perceptron on the concatenated endpoint features (z_u | z_v) followed by a logistic.
   The reference gathers the two endpoint rows per directed edge and multiplies the 256 concatenated features by W1;
   the kernel gathers each endpoint of each undirected edge once, and per tile of 4000 edges forms both directions'
   hidden layers from the two halves of W1: Σ_q (z_u | z_v)_q · W1[q, k] = Σ_j z_u[j] · W1[j, k] + Σ_j z_v[j] · W1[128 + j, k],
   a regrouping of one finite sum. The second layer is the same sum over the 256 hidden units on both sides, and the
   reference's 1 / (1 + exp (−x)) is the logistic the kernel applies.

   The reference wraps a negative node id by adding the table's length before its (clamping) gather; the kernel's gather
   clamps only. Under the precondition every id is in [0, 100000), the wrap does nothing, and both gathers read the row
   the id names.

   Proof/EdgeScore.lean states the score and the array of all scores; Proof/Domain.lean reads the id range out of the
   precondition; Proof/RefValue.lean shows the reference's result is that array; Proof/KernelBody.lean, KernelArrays.lean,
   KernelValue.lean and KernelRun.lean show the kernel's result is that array; here the claims are assembled. -/
import proofs.«422551_j63230508532406_3_alg».proof.Defs
import proofs.«422551_j63230508532406_3_alg».proof.Proof.Gen.Kernel
import proofs.«422551_j63230508532406_3_alg».proof.Proof.Gen.Kernel.Skeleton
import proofs.«422551_j63230508532406_3_alg».proof.Proof.Gen.Kernel.Launch
import proofs.«422551_j63230508532406_3_alg».proof.Proof.Gen.Kernel.Points
import proofs.«422551_j63230508532406_3_alg».proof.Proof.Gen.Kernel.Frame
import proofs.«422551_j63230508532406_3_alg».proof.Proof.Gen.KernelIdeal
import proofs.«422551_j63230508532406_3_alg».proof.Proof.Gen.KernelIdeal.Skeleton
import proofs.«422551_j63230508532406_3_alg».proof.Proof.Gen.KernelIdeal.Launch
import proofs.«422551_j63230508532406_3_alg».proof.Proof.Gen.KernelIdeal.Points
import proofs.«422551_j63230508532406_3_alg».proof.Proof.Gen.KernelIdeal.Frame
import proofs.«422551_j63230508532406_3_alg».proof.Proof.Gen.ReferenceIdeal
import proofs.«422551_j63230508532406_3_alg».proof.Proof.Gen.ReferenceIdeal.Run
import proofs.«422551_j63230508532406_3_alg».proof.Proof.Gen.ReferenceIdeal.Read
import proofs.«422551_j63230508532406_3_alg».proof.Proof.Gen.Pre_finite_inputs
import proofs.«422551_j63230508532406_3_alg».proof.Proof.Domain
import proofs.«422551_j63230508532406_3_alg».proof.Proof.RefValue
import proofs.«422551_j63230508532406_3_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the array of edge scores of their (agreeing) arguments. -/
theorem algebraic : Cert.algebraic_KernelIdeal_ReferenceIdeal := by
  intro m ρ m' ρ' hpre hagree
  refine ⟨_, Cert.EdgeMlp.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2.1,
    (hagree c).2.2.2.2.1, (hagree c).2.2.2.2.2.1, (hagree c).2.2.2.2.2.2]
  exact Cert.EdgeMlp.Ref.result_eq _ _ _ _ _ _ _ (fun i => Cert.EdgeMlp.word_inRange _ _ _ _ _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
